-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)) →
    ∃ (v0 : (c : Dev Cert.KernelIdeal.nD) → Buf (Elt Ideal) ((c.tc : Thread Cert.KernelIdeal.nD Cert.KernelIdeal.τ).loc Cert.KernelIdeal.main_v3)) (v1 : (c : Dev Cert.KernelIdeal.nD) → Buf (Elt Ideal) ((c.tc : Thread Cert.KernelIdeal.nD Cert.KernelIdeal.τ).loc Cert.KernelIdeal.main_v4)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v3) = v0 c
          ∧ r.2.mem ((c.tc : Thread Cert.KernelIdeal.nD Cert.KernelIdeal.τ).loc Cert.KernelIdeal.main_v4) = v1 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v15) = v0 c
          ∧ r.2.mem ((c.tc : Thread Cert.ReferenceIdeal.nD Cert.ReferenceIdeal.τ).loc Cert.ReferenceIdeal.main_v12) = v1 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S32x131072x3 : Shape := ⟨3, ![32, 131072, 3]⟩
abbrev S4194304 : Shape := ⟨1, ![4194304]⟩
abbrev S_ : Shape := ⟨0, ![]⟩

class Facts : Prop where
  bcast_S_S32x131072x3 : S_.BroadcastsInDim S32x131072x3 (![] : Fin 0 → Fin S32x131072x3.rank)
  reducesTo_S32x131072x3_S_d0_1_2 : S32x131072x3.ReducesTo [0, 1, 2] S_
  h_S_ : 0 < S_.numel
  bcast_S_S4194304 : S_.BroadcastsInDim S4194304 (![] : Fin 0 → Fin S4194304.rank)
  reducesTo_S4194304_S_d0 : S4194304.ReducesTo [0] S_

variable [Facts]

def fn {F : FTy → Type} [FloatOps F] (main_arg0 : FVec F S32x131072x3 .f32) (main_arg1 : IVec S4194304 32) : IVec S_ 1 :=
  let main_v0 : FVec F S32x131072x3 .f32 := Host.absf main_arg0
  let main_cst : FVec F S_ .f32 := constant S_ .f32 0x7F800000#32
  let main_v1 : FVec F S32x131072x3 .f32 := broadcastInDim S32x131072x3 ![] bcast_S_S32x131072x3 main_cst
  let main_v2 : IVec S32x131072x3 1 := cmpf .olt main_v0 main_v1
  let main_c : IVec S_ 1 := constantI S_ 1 1#1
  let main_v3 : IVec S_ 1 := (fun x v => Host.reduce IntOp.andi x v reducesTo_S32x131072x3_S_d0_1_2 h_S_) main_v2 main_c
  let main_c_0 : IVec S_ 32 := constantI S_ 32 4290772992#32
  let main_v4 : IVec S4194304 32 := broadcastInDim S4194304 ![] bcast_S_S4194304 main_c_0
  let main_v5 : IVec S4194304 1 := cmpi .sge main_arg1 main_v4
  let main_c_1 : IVec S_ 32 := constantI S_ 32 4194304#32
  let main_v6 : IVec S4194304 32 := broadcastInDim S4194304 ![] bcast_S_S4194304 main_c_1
  let main_v7 : IVec S4194304 1 := cmpi .slt main_arg1 main_v6
  let main_v8 : IVec S4194304 1 := andi main_v5 main_v7
  let main_c_2 : IVec S_ 1 := constantI S_ 1 1#1
  let main_v9 : IVec S_ 1 := (fun x v => Host.reduce IntOp.andi x v reducesTo_S4194304_S_d0 h_S_) main_v8 main_c_2
  let main_v10 : IVec S_ 1 := andi main_v3 main_v9
  main_v10
-- ==== Kernel.lean ====
abbrev S32x131072x3 : Shape := ⟨3, ![32, 131072, 3]⟩
abbrev S4194304 : Shape := ⟨1, ![4194304]⟩
abbrev S4194304x3 : Shape := ⟨2, ![4194304, 3]⟩
abbrev S_ : Shape := ⟨0, ![]⟩
abbrev S4194304x1 : Shape := ⟨2, ![4194304, 1]⟩
abbrev S1 : Shape := ⟨1, ![1]⟩
abbrev S1x1 : Shape := ⟨2, ![1, 1]⟩
abbrev S65536x3 : Shape := ⟨2, ![65536, 3]⟩
abbrev S8192x3 : Shape := ⟨2, ![8192, 3]⟩
abbrev S128x3 : Shape := ⟨2, ![128, 3]⟩
abbrev S128x64x3 : Shape := ⟨3, ![128, 64, 3]⟩
abbrev S128x1x3 : Shape := ⟨3, ![128, 1, 3]⟩
abbrev S32x2048x64x3 : Shape := ⟨4, ![32, 2048, 64, 3]⟩
abbrev S32x2048x3 : Shape := ⟨3, ![32, 2048, 3]⟩

abbrev nBuf : Space → Nat
  | .hbm => 30
  | .vmem => 6
  | .smem => 0
  | _ => 0

abbrev bufTy : (tb : Table) → Fin (tcTables nBuf tb) → BufTy
  | .hbm, ⟨0, _⟩ => ⟨S32x131072x3, .f32⟩
  | .hbm, ⟨1, _⟩ => ⟨S4194304, .i32⟩
  | .hbm, ⟨2, _⟩ => ⟨S4194304x3, .f32⟩
  | .hbm, ⟨3, _⟩ => ⟨S_, .i32⟩
  | .hbm, ⟨4, _⟩ => ⟨S4194304, .i32⟩
  | .hbm, ⟨5, _⟩ => ⟨S4194304, .i1⟩
  | .hbm, ⟨6, _⟩ => ⟨S_, .i32⟩
  | .hbm, ⟨7, _⟩ => ⟨S4194304, .i32⟩
  | .hbm, ⟨8, _⟩ => ⟨S4194304, .i32⟩
  | .hbm, ⟨9, _⟩ => ⟨S4194304, .i32⟩
  | .hbm, ⟨10, _⟩ => ⟨S4194304x1, .i32⟩
  | .hbm, ⟨11, _⟩ => ⟨S1, .i32⟩
  | .hbm, ⟨12, _⟩ => ⟨S_, .i32⟩
  | .hbm, ⟨13, _⟩ => ⟨S4194304x1, .i32⟩
  | .hbm, ⟨14, _⟩ => ⟨S4194304x1, .i1⟩
  | .hbm, ⟨15, _⟩ => ⟨S1x1, .i32⟩
  | .hbm, ⟨16, _⟩ => ⟨S4194304x1, .i32⟩
  | .hbm, ⟨17, _⟩ => ⟨S4194304x1, .i1⟩
  | .hbm, ⟨18, _⟩ => ⟨S4194304x1, .i1⟩
  | .hbm, ⟨19, _⟩ => ⟨S_, .i1⟩
  | .hbm, ⟨20, _⟩ => ⟨S4194304, .i1⟩
  | .hbm, ⟨21, _⟩ => ⟨S4194304x3, .f32⟩
  | .hbm, ⟨22, _⟩ => ⟨S4194304x3, .i1⟩
  | .hbm, ⟨23, _⟩ => ⟨S_, .f32⟩
  | .hbm, ⟨24, _⟩ => ⟨S4194304x3, .f32⟩
  | .hbm, ⟨25, _⟩ => ⟨S4194304x3, .f32⟩
  | .hbm, ⟨26, _⟩ => ⟨S4194304x3, .f32⟩
  | .hbm, ⟨27, _⟩ => ⟨S65536x3, .f32⟩
  | .hbm, ⟨28, _⟩ => ⟨S32x2048x64x3, .f32⟩
  | .hbm, ⟨29, _⟩ => ⟨S32x2048x3, .f32⟩
  | .local _ .vmem, ⟨0, _⟩ => ⟨S8192x3, .f32⟩
  | .local _ .vmem, ⟨1, _⟩ => ⟨S8192x3, .f32⟩
  | .local _ .vmem, ⟨2, _⟩ => ⟨S8192x3, .f32⟩
  | .local _ .vmem, ⟨3, _⟩ => ⟨S8192x3, .f32⟩
  | .local _ .vmem, ⟨4, _⟩ => ⟨S128x3, .f32⟩
  | .local _ .vmem, ⟨5, _⟩ => ⟨S128x3, .f32⟩
  | _, _ => ⟨S32x131072x3, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_call0_c : Ref sig .tc := ⟨.hbm, 3, rfl⟩
abbrev main_call0_v0 : Ref sig .tc := ⟨.hbm, 4, rfl⟩
abbrev main_call0_v1 : Ref sig .tc := ⟨.hbm, 5, rfl⟩
abbrev main_call0_c_0 : Ref sig .tc := ⟨.hbm, 6, rfl⟩
abbrev main_call0_v2 : Ref sig .tc := ⟨.hbm, 7, rfl⟩
abbrev main_call0_v3 : Ref sig .tc := ⟨.hbm, 8, rfl⟩
abbrev main_call0_v4 : Ref sig .tc := ⟨.hbm, 9, rfl⟩
abbrev main_call0_v5 : Ref sig .tc := ⟨.hbm, 10, rfl⟩
abbrev main_call0_c_1 : Ref sig .tc := ⟨.hbm, 11, rfl⟩
abbrev main_call0_c_2 : Ref sig .tc := ⟨.hbm, 12, rfl⟩
abbrev main_call0_v6 : Ref sig .tc := ⟨.hbm, 13, rfl⟩
abbrev main_call0_v7 : Ref sig .tc := ⟨.hbm, 14, rfl⟩
abbrev main_call0_v8 : Ref sig .tc := ⟨.hbm, 15, rfl⟩
abbrev main_call0_v9 : Ref sig .tc := ⟨.hbm, 16, rfl⟩
abbrev main_call0_v10 : Ref sig .tc := ⟨.hbm, 17, rfl⟩
abbrev main_call0_v11 : Ref sig .tc := ⟨.hbm, 18, rfl⟩
abbrev main_call0_c_3 : Ref sig .tc := ⟨.hbm, 19, rfl⟩
abbrev main_call0_v12 : Ref sig .tc := ⟨.hbm, 20, rfl⟩
abbrev main_call0_v13 : Ref sig .tc := ⟨.hbm, 21, rfl⟩
abbrev main_call0_v14 : Ref sig .tc := ⟨.hbm, 22, rfl⟩
abbrev main_call0_cst : Ref sig .tc := ⟨.hbm, 23, rfl⟩
abbrev main_call0_v15 : Ref sig .tc := ⟨.hbm, 24, rfl⟩
abbrev main_v1 : Ref sig .tc := ⟨.hbm, 25, rfl⟩
abbrev main_v2_0 : Ref sig .tc := ⟨.hbm, 26, rfl⟩
abbrev main_v2_1 : Ref sig .tc := ⟨.hbm, 27, rfl⟩
abbrev main_v3 : Ref sig .tc := ⟨.hbm, 28, rfl⟩
abbrev main_v4 : Ref sig .tc := ⟨.hbm, 29, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨1, ![512], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S8192x3 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S8192x3 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S128x3 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

class Facts₀ : Prop where
  shapeCasts_S32x131072x3_S4194304x3 : S32x131072x3.ShapeCasts S4194304x3
  bcast_S_S4194304 : S_.BroadcastsInDim S4194304 (![] : Fin 0 → Fin S4194304.rank)
  bcast_S4194304_S4194304x1_0 : S4194304.BroadcastsInDim S4194304x1 (![0] : Fin 1 → Fin S4194304x1.rank)
  bcast_S_S4194304x1 : S_.BroadcastsInDim S4194304x1 (![] : Fin 0 → Fin S4194304x1.rank)
  bcast_S1_S1x1_1 : S1.BroadcastsInDim S1x1 (![1] : Fin 1 → Fin S1x1.rank)
  bcast_S1x1_S4194304x1_0_1 : S1x1.BroadcastsInDim S4194304x1 (![0, 1] : Fin 2 → Fin S4194304x1.rank)
  reducesTo_S4194304x1_S4194304_d1 : S4194304x1.ReducesTo [1] S4194304
  h_S_ : 0 < S_.numel
  bcast_S4194304_S4194304x3_0 : S4194304.BroadcastsInDim S4194304x3 (![0] : Fin 1 → Fin S4194304x3.rank)
  bcast_S_S4194304x3 : S_.BroadcastsInDim S4194304x3 (![] : Fin 0 → Fin S4194304x3.rank)
  inb_S8192x3_S8192x3_0_0 : ∀ a, (![0, 0] : Fin 2 → Nat) a + S8192x3.size a ≤ S8192x3.size a
  h_S8192x3 : 0 < S8192x3.numel
  shapeCasts_S8192x3_S8192x3 : S8192x3.ShapeCasts S8192x3
  shapeCasts_S8192x3_S128x64x3 : S8192x3.ShapeCasts S128x64x3
  reduces_S128x64x3_S128x3 : S128x64x3.Reduces [1] S128x3
  shapeCasts_S128x3_S128x1x3 : S128x3.ShapeCasts S128x1x3
  broadcasts_S128x1x3_S128x64x3 : S128x1x3.Broadcasts S128x64x3
  shapeCasts_S128x64x3_S8192x3 : S128x64x3.ShapeCasts S8192x3
  inb_S128x3_S128x3_0_0 : ∀ a, (![0, 0] : Fin 2 → Nat) a + S128x3.size a ≤ S128x3.size a
  h_S128x3 : 0 < S128x3.numel
  shapeCasts_S4194304x3_S32x2048x64x3 : S4194304x3.ShapeCasts S32x2048x64x3
  shapeCasts_S65536x3_S32x2048x3 : S65536x3.ShapeCasts S32x2048x3
  gather_S4194304x3_S4194304x1_S4194304x3_1_0_n_n_0_1_13_wf : GatherDims.WF S4194304x3 S4194304x1 S4194304x3 [1] [0] [] [0] [] 1 ![1, 3]
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S8192x3.size a ≤ S4194304x3.size a
  hwx0_0 : ∀ i : grid0.Coords, EltTy.bits .f32 = 32 ∨ (Rect.block (s := S4194304x3) S8192x3.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S8192x3.size a ≤ S4194304x3.size a
  hwx0_1 : ∀ i : grid0.Coords, EltTy.bits .f32 = 32 ∨ (Rect.block (s := S4194304x3) S8192x3.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S128x3.size a ≤ S65536x3.size a
  hwx0_2 : ∀ i : grid0.Coords, EltTy.bits .f32 = 32 ∨ (Rect.block (s := S65536x3) S128x3.size (cc0_transform_2 i) (hinb0_2 i)).WholeWords (EltTy.packing .f32)

variable [Facts₀]

def gather_S4194304x3_S4194304x1_S4194304x3_1_0_n_n_0_1_13 : GatherDims S4194304x3 S4194304x1 S4194304x3 where
  offsetDims := [1]
  collapsedSliceDims := [0]
  operandBatchingDims := []
  startIndicesBatchingDims := []
  startIndexMap := [0]
  indexVectorDim := 1
  sliceSizes := ![1, 3]
  wf := gather_S4194304x3_S4194304x1_S4194304x3_1_0_n_n_0_1_13_wf

abbrev win0_0 : Pipeline.Window sig grid0 :=
  Pipeline.Window.ofSpec (Memref.whole main_v1) S8192x3.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v2_0) S8192x3.size cc0_transform_1 reads0_1 true false 2 stage0_1 sem0_1
    hrank0 hreads0_1 hinb0_1 nbuf0_1 (Memref.isWhole_whole _) hwx0_1 hstage0_1

abbrev win0_2 : Pipeline.Window sig grid0 :=
  Pipeline.Window.ofSpec (Memref.whole main_v2_1) S128x3.size cc0_transform_2 reads0_2 true false 2 stage0_2 sem0_2
    hrank0 hreads0_2 hinb0_2 nbuf0_2 (Memref.isWhole_whole _) hwx0_2 hstage0_2

abbrev win0 : Fin 3 → Pipeline.Window sig grid0 := fun | 0 => win0_0 | 1 => win0_1 | 2 => win0_2 | ⟨_ + 3, h⟩ => absurd h (Nat.not_lt.2 (Nat.le_add_left _ _))
abbrev spec0 : Fin 3 → Pipeline.WinSpec sig grid0.rank := fun w => (win0 w).toWinSpec

class Facts : Prop extends Facts₀ where

variable [Facts]
-- ==== ReferenceIdeal.lean ====
abbrev S32x131072x3 : Shape := ⟨3, ![32, 131072, 3]⟩
abbrev S4194304 : Shape := ⟨1, ![4194304]⟩
abbrev S4194304x3 : Shape := ⟨2, ![4194304, 3]⟩
abbrev S_ : Shape := ⟨0, ![]⟩
abbrev S4194304x1 : Shape := ⟨2, ![4194304, 1]⟩
abbrev S32x2048x64x3 : Shape := ⟨4, ![32, 2048, 64, 3]⟩
abbrev S32x2048x3 : Shape := ⟨3, ![32, 2048, 3]⟩
abbrev S32x2048x1x3 : Shape := ⟨4, ![32, 2048, 1, 3]⟩

abbrev nBuf : Space → Nat
  | .hbm => 22
  | .vmem => 0
  | .smem => 0
  | _ => 0

abbrev bufTy : (tb : Table) → Fin (tcTables nBuf tb) → BufTy
  | .hbm, ⟨0, _⟩ => ⟨S32x131072x3, .f32⟩
  | .hbm, ⟨1, _⟩ => ⟨S4194304, .i32⟩
  | .hbm, ⟨2, _⟩ => ⟨S4194304x3, .f32⟩
  | .hbm, ⟨3, _⟩ => ⟨S_, .i32⟩
  | .hbm, ⟨4, _⟩ => ⟨S4194304, .i32⟩
  | .hbm, ⟨5, _⟩ => ⟨S4194304, .i1⟩
  | .hbm, ⟨6, _⟩ => ⟨S_, .i32⟩
  | .hbm, ⟨7, _⟩ => ⟨S4194304, .i32⟩
  | .hbm, ⟨8, _⟩ => ⟨S4194304, .i32⟩
  | .hbm, ⟨9, _⟩ => ⟨S4194304, .i32⟩
  | .hbm, ⟨10, _⟩ => ⟨S4194304x1, .i32⟩
  | .hbm, ⟨11, _⟩ => ⟨S4194304x3, .f32⟩
  | .hbm, ⟨12, _⟩ => ⟨S32x131072x3, .f32⟩
  | .hbm, ⟨13, _⟩ => ⟨S32x2048x64x3, .f32⟩
  | .hbm, ⟨14, _⟩ => ⟨S_, .f32⟩
  | .hbm, ⟨15, _⟩ => ⟨S32x2048x3, .f32⟩
  | .hbm, ⟨16, _⟩ => ⟨S_, .f32⟩
  | .hbm, ⟨17, _⟩ => ⟨S32x2048x3, .f32⟩
  | .hbm, ⟨18, _⟩ => ⟨S32x2048x3, .f32⟩
  | .hbm, ⟨19, _⟩ => ⟨S32x2048x1x3, .f32⟩
  | .hbm, ⟨20, _⟩ => ⟨S32x2048x64x3, .f32⟩
  | .hbm, ⟨21, _⟩ => ⟨S32x2048x64x3, .f32⟩
  | _, _ => ⟨S32x131072x3, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_c : Ref sig .tc := ⟨.hbm, 3, rfl⟩
abbrev main_v1 : Ref sig .tc := ⟨.hbm, 4, rfl⟩
abbrev main_v2 : Ref sig .tc := ⟨.hbm, 5, rfl⟩
abbrev main_c_0 : Ref sig .tc := ⟨.hbm, 6, rfl⟩
abbrev main_v3 : Ref sig .tc := ⟨.hbm, 7, rfl⟩
abbrev main_v4 : Ref sig .tc := ⟨.hbm, 8, rfl⟩
abbrev main_v5 : Ref sig .tc := ⟨.hbm, 9, rfl⟩
abbrev main_v6 : Ref sig .tc := ⟨.hbm, 10, rfl⟩
abbrev main_v7 : Ref sig .tc := ⟨.hbm, 11, rfl⟩
abbrev main_v8 : Ref sig .tc := ⟨.hbm, 12, rfl⟩
abbrev main_v9 : Ref sig .tc := ⟨.hbm, 13, rfl⟩
abbrev main_cst : Ref sig .tc := ⟨.hbm, 14, rfl⟩
abbrev main_v10 : Ref sig .tc := ⟨.hbm, 15, rfl⟩
abbrev main_cst_1 : Ref sig .tc := ⟨.hbm, 16, rfl⟩
abbrev main_v11 : Ref sig .tc := ⟨.hbm, 17, rfl⟩
abbrev main_v12 : Ref sig .tc := ⟨.hbm, 18, rfl⟩
abbrev main_v13 : Ref sig .tc := ⟨.hbm, 19, rfl⟩
abbrev main_v14 : Ref sig .tc := ⟨.hbm, 20, rfl⟩
abbrev main_v15 : Ref sig .tc := ⟨.hbm, 21, rfl⟩

abbrev nD : Nat := 1
abbrev τ : Topo := Topo.v7x

variable {F : FTy → Type} [FloatOps F]

class Facts₀ : Prop where
  shapeCasts_S32x131072x3_S4194304x3 : S32x131072x3.ShapeCasts S4194304x3
  bcast_S_S4194304 : S_.BroadcastsInDim S4194304 (![] : Fin 0 → Fin S4194304.rank)
  bcast_S4194304_S4194304x1_0 : S4194304.BroadcastsInDim S4194304x1 (![0] : Fin 1 → Fin S4194304x1.rank)
  shapeCasts_S4194304x3_S32x131072x3 : S4194304x3.ShapeCasts S32x131072x3
  shapeCasts_S32x131072x3_S32x2048x64x3 : S32x131072x3.ShapeCasts S32x2048x64x3
  reducesTo_S32x2048x64x3_S32x2048x3_d2 : S32x2048x64x3.ReducesTo [2] S32x2048x3
  h_S_ : 0 < S_.numel
  bcast_S_S32x2048x3 : S_.BroadcastsInDim S32x2048x3 (![] : Fin 0 → Fin S32x2048x3.rank)
  bcast_S32x2048x3_S32x2048x1x3_0_1_3 : S32x2048x3.BroadcastsInDim S32x2048x1x3 (![0, 1, 3] : Fin 3 → Fin S32x2048x1x3.rank)
  bcast_S32x2048x1x3_S32x2048x64x3_0_1_2_3 : S32x2048x1x3.BroadcastsInDim S32x2048x64x3 (![0, 1, 2, 3] : Fin 4 → Fin S32x2048x64x3.rank)
  gather_S4194304x3_S4194304x1_S4194304x3_1_0_n_n_0_1_13_wf : GatherDims.WF S4194304x3 S4194304x1 S4194304x3 [1] [0] [] [0] [] 1 ![1, 3]

variable [Facts₀]

def gather_S4194304x3_S4194304x1_S4194304x3_1_0_n_n_0_1_13 : GatherDims S4194304x3 S4194304x1 S4194304x3 where
  offsetDims := [1]
  collapsedSliceDims := [0]
  operandBatchingDims := []
  startIndicesBatchingDims := []
  startIndexMap := [0]
  indexVectorDim := 1
  sliceSizes := ![1, 3]
  wf := gather_S4194304x3_S4194304x1_S4194304x3_1_0_n_n_0_1_13_wf

class Facts : Prop extends Facts₀ where

variable [Facts]
-- ==== Proof.PatchMean.lean ====
/-
  A table of 4194304 rows of three coordinates, cut into 65536 patches of 64 consecutive rows. The centre of a
  patch is, coordinate by coordinate, the sum of its 64 rows divided by 64; a row is centred by subtracting its
  patch's centre. Both are stated over the extended reals, one array index at a time: the sum is a finite sum, the
  quotient is the ideal division by the value of the single-precision word for 64 (never evaluated: the same
  word stands on both sides of every equation it enters).
-/
import Idealize.ShloMosaic.PureOps.Ideal
import Idealize.ShloMosaic.Lib.ValueIdx
import Idealize.ShloMosaic.Lib.Pipeline.Value

noncomputable section

namespace Cert.PatchMean

open Idealize.ShloMosaic Idealize.ShloMosaic.ValueIdx

/-- The table's shape: 4194304 rows of 3. -/
abbrev Rows : Shape := ⟨2, ![4194304, 3]⟩
/-- One row of 3 per patch. -/
abbrev Pats : Shape := ⟨2, ![65536, 3]⟩

/-- Row `p` of patch `q`. -/
abbrev rowOf (q : Fin 65536) (p : Fin 64) : Fin 4194304 :=
  ⟨q.val * 64 + p.val, by have := q.isLt; have := p.isLt; omega⟩

/-- The patch a row lies in. -/
abbrev patchOf (r : Fin 4194304) : Fin 65536 := ⟨r.val / 64, by have := r.isLt; omega⟩

/-- The divisor: the value of the single-precision word for 64. -/
abbrev sixtyFour : EReal := Ideal.ofBits .f32 0x42800000#32

/-- A patch's centre: the sum of its 64 rows over 64, per coordinate. -/
def centres (Y : Rows.Idx → EReal) : Pats.Idx → EReal := fun j =>
  Ideal.div (∑ p : Fin 64, Y (ix2 (rowOf (j 0) p) (j 1))) sixtyFour

/-- A row relative to its patch's centre. -/
def centred (Y : Rows.Idx → EReal) : Rows.Idx → EReal := fun i =>
  Y i - centres Y (ix2 (patchOf (i 0)) (i 1))

/-- The results' layouts: the rows as 32 × 2048 patches of 64 rows, the centres as 32 × 2048 rows of 3. -/
abbrev Out4 : Shape := ⟨4, ![32, 2048, 64, 3]⟩
abbrev Out3 : Shape := ⟨3, ![32, 2048, 3]⟩

theorem rows_cast : Rows.ShapeCasts Out4 := by decide
theorem pats_cast : Pats.ShapeCasts Out3 := by decide

/-- The first result: the centred rows, laid out patch by patch. -/
def patchesOut (Y : Rows.Idx → EReal) : Out4.Idx → EReal := shapeCast Out4 (centred Y) rows_cast

/-- The second result: the patch centres, laid out likewise. -/
def centresOut (Y : Rows.Idx → EReal) : Out3.Idx → EReal := shapeCast Out3 (centres Y) pats_cast

theorem centres_apply (Y : Rows.Idx → EReal) (q : Fin 65536) (c : Fin 3) :
    centres Y (ix2 q c) = Ideal.div (∑ p : Fin 64, Y (ix2 (rowOf q p) c)) sixtyFour := rfl

theorem centred_apply (Y : Rows.Idx → EReal) (r : Fin 4194304) (c : Fin 3) :
    centred Y (ix2 r c) = Y (ix2 r c) - centres Y (ix2 (patchOf r) c) := rfl

/-- Patch (b, l) is patch 2048 b + l of the table. -/
abbrev patchAt (b : Fin 32) (l : Fin 2048) : Fin 65536 := ⟨b.val * 2048 + l.val, by have := b.isLt; have := l.isLt; omega⟩

theorem patchesOut_apply (Y : Rows.Idx → EReal) (b : Fin 32) (l : Fin 2048) (p : Fin 64) (c : Fin 3) :
    patchesOut Y (ix4 b l p c) = centred Y (ix2 (rowOf (patchAt b l) p) c) := by
  unfold patchesOut
  refine shapeCast_apply _ rows_cast (ix4 b l p c) (ix2 (rowOf (patchAt b l) p) c) ?_
  rw [Shape.rowMajor_val_two, Shape.rowMajor_val_four]
  show ((b.val * 2048 + l.val) * 64 + p.val) * 3 + c.val = ((b.val * 2048 + l.val) * 64 + p.val) * 3 + c.val
  rfl

theorem centresOut_apply (Y : Rows.Idx → EReal) (b : Fin 32) (l : Fin 2048) (c : Fin 3) :
    centresOut Y (ix3 b l c) = centres Y (ix2 (patchAt b l) c) := by
  unfold centresOut
  refine shapeCast_apply _ pats_cast (ix3 b l c) (ix2 (patchAt b l) c) ?_
  rw [Shape.rowMajor_val_two, Shape.rowMajor_val_three]
  show (b.val * 2048 + l.val) * 3 + c.val = (b.val * 2048 + l.val) * 3 + c.val
  rfl

theorem patchOf_rowOf (q : Fin 65536) (p : Fin 64) : patchOf (rowOf q p) = q :=
  Fin.ext (by show (q.val * 64 + p.val) / 64 = q.val; have := p.isLt; omega)

end Cert.PatchMean

end
-- ==== Proof.BlockValue.lean ====
/-
  One grid step of the kernel works on a block of 8192 consecutive rows, that is 128 whole patches. Read one index
  at a time over the extended reals: the block is viewed as 128 patches of 64 rows, the rows of a patch are summed
  coordinate by coordinate and divided by 64 (the step's second output, one row per patch), and that quotient is
  subtracted from each row of its patch (the step's first output, laid out again as 8192 rows).
-/
import proofs.«404306_j57621281243393_3_alg».proof.Proof.Gen.KernelIdeal.Skeleton
import proofs.«404306_j57621281243393_3_alg».proof.Proof.PatchMean
import Idealize.ShloMosaic.Lib.Pipeline.Value
import Idealize.ShloMosaic.Lib.ValueIdx
import Idealize.ShloMosaic.PureOps.Ideal.Laws

noncomputable section

namespace Cert.KernelIdeal.BlockValue

open Cert.KernelIdeal Cert.KernelIdeal.Gen Idealize.ShloMosaic Idealize.ShloMosaic.ValueIdx

/-- Row `p` of the block's patch `q`. -/
abbrev brow (q : Fin 128) (p : Fin 64) : Fin 8192 := ⟨q.val * 64 + p.val, by have := q.isLt; have := p.isLt; omega⟩

/-- The block seen as 128 patches of 64 rows: entry (q, p, c) is row 64 q + p, coordinate c. -/
theorem patches_at (x0 : FVec Ideal S8192x3 .f32) (q : Fin 128) (p : Fin 64) (c : Fin 3) :
    k0_pay1 (F := Ideal) x0 (ix3 q p c) = x0 (ix2 (brow q p) c) := by
  unfold k0_pay1
  refine (shapeCast_apply _ shapeCasts_S8192x3_S128x64x3 (ix3 q p c) (ix2 (brow q p) c) ?_).trans ?_
  · rw [Shape.rowMajor_val_two, Shape.rowMajor_val_three]
    show (q.val * 64 + p.val) * 3 + c.val = (q.val * 64 + p.val) * 3 + c.val
    rfl
  · exact congrFun (shapeCast_self x0 shapeCasts_S8192x3_S8192x3) _

/-- The lane sum over a patch's 64 rows, started from the zero word, is the plain finite sum of the 64 entries. -/
theorem patch_sum (src : FVec Ideal S128x64x3 .f32) (hφ : FKind.Formats .f32)
    (hacc : (0x00000000#32 : BitVec 32) = 0x00000000#32) (q : Fin 128) (c : Fin 3) :
    multiReduction .add [1] S128x3 src 0x00000000#32 reduces_S128x64x3_S128x3 hφ hacc (ix2 q c)
      = ∑ p : Fin 64, src (ix3 q p c) := by
  refine (Ideal.multiReduction_add_single src 0x00000000#32 reduces_S128x64x3_S128x3 hφ hacc (ix2 q c)).trans ?_
  refine Finset.sum_congr rfl fun p _ => congrArg src ?_
  funext a
  exact Fin.ext (by match a with | ⟨0, _⟩ => rfl | ⟨1, _⟩ => rfl | ⟨2, _⟩ => rfl)

/-- The step's second output: patch q's centre, the sum of its 64 rows over 64. -/
theorem centre_at (x0 : FVec Ideal S8192x3 .f32) (q : Fin 128) (c : Fin 3) :
    k0_pay2 (F := Ideal) x0 (ix2 q c)
      = Ideal.div (∑ p : Fin 64, x0 (ix2 (brow q p) c)) Cert.PatchMean.sixtyFour := by
  unfold k0_pay2
  refine congrArg (fun s => Ideal.div s Cert.PatchMean.sixtyFour) ?_
  refine (patch_sum (k0_pay1 (F := Ideal) x0) _ _ q c).trans ?_
  exact Finset.sum_congr rfl fun p _ => patches_at x0 q p c

/-- The step's first output: row 64 q + p less its patch's centre. -/
theorem centred_at (x0 : FVec Ideal S8192x3 .f32) (q : Fin 128) (p : Fin 64) (c : Fin 3) :
    k0_pay3 (F := Ideal) x0 (ix2 (brow q p) c)
      = x0 (ix2 (brow q p) c) - Ideal.div (∑ p' : Fin 64, x0 (ix2 (brow q p') c)) Cert.PatchMean.sixtyFour := by
  unfold k0_pay3
  refine (shapeCast_apply _ shapeCasts_S128x64x3_S8192x3 (ix2 (brow q p) c) (ix3 q p c) ?_).trans ?_
  · rw [Shape.rowMajor_val_two, Shape.rowMajor_val_three]
    show (q.val * 64 + p.val) * 3 + c.val = (q.val * 64 + p.val) * 3 + c.val
    rfl
  · show k0_pay1 (F := Ideal) x0 (ix3 q p c) - _ = _
    refine congrArg₂ (· - ·) (patches_at x0 q p c) ?_
    refine (broadcastTo_apply _ broadcasts_S128x1x3_S128x64x3 (ix3 q p c) (ix3 q (0 : Fin 1) c) ?_).trans ?_
    · intro a
      match a with
      | ⟨0, _⟩ => show q.val = if (128 : Nat) = 1 then 0 else q.val; rw [if_neg (by decide)]
      | ⟨1, _⟩ => show (0 : Nat) = if (1 : Nat) = 1 then 0 else p.val; rw [if_pos rfl]
      | ⟨2, _⟩ => show c.val = if (3 : Nat) = 1 then 0 else c.val; rw [if_neg (by decide)]
    · refine (shapeCast_apply _ shapeCasts_S128x3_S128x1x3 (ix3 q (0 : Fin 1) c) (ix2 q c) ?_).trans (centre_at x0 q c)
      rw [Shape.rowMajor_val_two, Shape.rowMajor_val_three]
      show q.val * 3 + c.val = (q.val * 1 + 0) * 3 + c.val
      omega

end Cert.KernelIdeal.BlockValue

end
-- ==== Proof.StepValue.lean ====
/-
  One grid step against the whole table. Step T works on rows 8192 T … 8192 T + 8191 of the table, that is on the
  patches 128 T … 128 T + 127. If the step's input block holds those rows, then what it writes are the centres of
  those patches and those rows centred: the block's patch q is the table's patch 128 T + q, and row 64 q + p of the
  block is row 64 (128 T + q) + p of the table.
-/
import proofs.«404306_j57621281243393_3_alg».proof.Proof.BlockValue

noncomputable section

namespace Cert.KernelIdeal.StepValue

open Cert.KernelIdeal Cert.KernelIdeal.Gen Cert.KernelIdeal.BlockValue Cert.PatchMean
open Idealize.ShloMosaic Idealize.ShloMosaic.ValueIdx

/-- Row `r` of step `T`'s block, as a row of the table. -/
abbrev tableRow (T : Fin 512) (r : Fin 8192) : Fin 4194304 :=
  ⟨T.val * 8192 + r.val, by have := T.isLt; have := r.isLt; omega⟩

/-- Patch `q` of step `T`'s block, as a patch of the table. -/
abbrev tablePatch (T : Fin 512) (q : Fin 128) : Fin 65536 :=
  ⟨T.val * 128 + q.val, by have := T.isLt; have := q.isLt; omega⟩

variable (T : Fin 512) (x0 : FVec Ideal S8192x3 .f32) (Y : Rows.Idx → EReal)

/-- The sum over a patch's rows, read in the block or in the table. -/
theorem patch_sum_eq (hx : ∀ (r : Fin 8192) (c : Fin 3), x0 (ix2 r c) = Y (ix2 (tableRow T r) c)) (q : Fin 128) (c : Fin 3) :
    (∑ p : Fin 64, x0 (ix2 (brow q p) c)) = ∑ p : Fin 64, Y (ix2 (rowOf (tablePatch T q) p) c) := by
  refine Finset.sum_congr rfl fun p _ => (hx (brow q p) c).trans (congrArg (fun r => Y (ix2 r c)) (Fin.ext ?_))
  show T.val * 8192 + (q.val * 64 + p.val) = (T.val * 128 + q.val) * 64 + p.val
  omega

/-- The step's second output is the table's patch centres 128 T … 128 T + 127. -/
theorem step_centres (hx : ∀ (r : Fin 8192) (c : Fin 3), x0 (ix2 r c) = Y (ix2 (tableRow T r) c)) (q : Fin 128) (c : Fin 3) :
    k0_pay2 (F := Ideal) x0 (ix2 q c) = centres Y (ix2 (tablePatch T q) c) := by
  rw [centre_at, centres_apply, patch_sum_eq T x0 Y hx q c]

/-- The step's first output is the table's rows 8192 T … 8192 T + 8191, centred. -/
theorem step_centred (hx : ∀ (r : Fin 8192) (c : Fin 3), x0 (ix2 r c) = Y (ix2 (tableRow T r) c)) (q : Fin 128) (p : Fin 64)
    (c : Fin 3) :
    k0_pay3 (F := Ideal) x0 (ix2 (brow q p) c) = centred Y (ix2 (tableRow T (brow q p)) c) := by
  rw [centred_at, centred_apply, centres_apply, hx (brow q p) c, patch_sum_eq T x0 Y hx q c]
  have e : patchOf (tableRow T (brow q p)) = tablePatch T q := Fin.ext (by
    show (T.val * 8192 + (q.val * 64 + p.val)) / 64 = T.val * 128 + q.val
    have := p.isLt; omega)
  rw [e]

end Cert.KernelIdeal.StepValue

end
-- ==== Proof.ArrayValue.lean ====
/-
  The two arrays the kernel region leaves behind. The grid has 512 steps; step t reads block t of the table (rows
  8192 t … 8192 t + 8191) and writes block t of each output: the same rows of the first, and rows 128 t … 128 t + 127
  of the second. Each written block is the corresponding block of ONE function of the whole table — the rows centred,
  and the patch centres — and the blocks tile both arrays (row i lies in block i / 8192, patch j in block j / 128),
  so after the region the first array holds every row centred and the second every patch centre.
-/
import proofs.«404306_j57621281243393_3_alg».proof.Proof.Gen.KernelIdeal.Frame
import proofs.«404306_j57621281243393_3_alg».proof.Proof.StepValue
import Idealize.ShloMosaic.Lib.Pipeline.Value

noncomputable section

namespace Cert.KernelIdeal.ArrayValue

open Cert.KernelIdeal Cert.KernelIdeal.Gen Cert.KernelIdeal.BlockValue Cert.KernelIdeal.StepValue Cert.PatchMean
open Idealize.ShloMosaic Idealize.ShloMosaic.TcCoe Idealize.SL.Sem Idealize.ShloMosaic.ValueIdx
open Idealize.ShloMosaic.Pipeline (Dat)

variable (m : (ℓ : Loc nD τ sig) → Buf (Elt Ideal) ℓ)

/-- The table of rows as the region finds it: the contents of the array the input window stages. -/
abbrev table (c : Dev nD) : Rows.Idx → EReal := V m c (Pipeline.arrRef spec0 0)

theorem hz : (![0, 0] : Fin 2 → Nat) = fun _ => 0 := funext fun a => by fin_cases a <;> rfl

/-- The grid point as a step number. -/
abbrev stepOf (t : Fin cfg0.N) : Fin 512 := Fin.cast N_0 t

/-- Every window's block index at step t is (t, 0). -/
theorem idx_facts : ∀ t : Fin cfg0.N, win0_0.index t (0 : Fin 2) = t.val ∧ win0_0.index t (1 : Fin 2) = 0
    ∧ win0_1.index t (0 : Fin 2) = t.val ∧ win0_1.index t (1 : Fin 2) = 0
    ∧ win0_2.index t (0 : Fin 2) = t.val ∧ win0_2.index t (1 : Fin 2) = 0 :=
  (by decide +kernel : ∀ t : Fin grid0.N, _)

/-- Block t of any array of 4194304 rows, read through the input window, is rows 8192 t … 8192 t + 8191 of it. -/
theorem read_block (X : S4194304x3.Idx → EReal) (t : Fin cfg0.N) (y : S8192x3.Idx) :
    ((cfg0.win 0).blk t).view.read (Elt Ideal) X y = X (ix2 (tableRow (stepOf t) (y 0)) (y 1)) := by
  obtain ⟨e0, e1, -⟩ := idx_facts t
  rw [View.read_apply]
  show X (((cfg0.win 0).blk t).view.emb y) = X _
  have h0 : ((cfg0.win 0).blk t).view.emb y = ix2 (tableRow (stepOf t) (y 0)) (y 1) := by
    funext a; apply Fin.ext
    match a with
    | ⟨0, _⟩ => show win0_0.index t (0 : Fin 2) * 8192 + 1 * (y 0).val = t.val * 8192 + (y 0).val; omega
    | ⟨1, _⟩ => show win0_0.index t (1 : Fin 2) * 3 + 1 * (y 1).val = (y 1).val; omega
  rw [h0]
  rfl

/-- Step t's input block, at its literal shape. -/
abbrev xblk (c : Dev nD) (t : Fin cfg0.N) : FVec Ideal S8192x3 .f32 := iblk m c 0 t

/-- Step t's input block holds rows 8192 t … 8192 t + 8191 of the table. -/
theorem block_rows (c : Dev nD) (t : Fin cfg0.N) (r : Fin 8192) (cc : Fin 3) :
    xblk m c t (ix2 r cc) = table m c (ix2 (tableRow (stepOf t) r) cc) := by
  show iblk m c 0 t (ix2 r cc) = _
  unfold iblk
  exact read_block (V m c (Pipeline.arrRef spec0 0)) t (ix2 r cc)

/-! ## The first output: the rows, centred -/

/-- If a step's input block holds rows 8192 t … of an array Y, the block it writes to the first output is block t
    of Y centred. -/
theorem write_block1 (x0 : FVec Ideal S8192x3 .f32) (Y : Rows.Idx → EReal) (t : Fin cfg0.N)
    (hx : ∀ (r : Fin 8192) (cc : Fin 3), x0 (ix2 r cc) = Y (ix2 (tableRow (stepOf t) r) cc)) :
    (cfg0.win 1).cut (grid0.coords t) (k0_pay3 (F := Ideal) x0)
      = ((cfg0.win 1).blk t).view.read (Elt Ideal) (centred Y) := by
  obtain ⟨-, -, e2, e3, -⟩ := idx_facts t
  funext j
  rw [View.read_apply]
  show k0_pay3 (F := Ideal) x0 j = centred Y (((cfg0.win 1).blk t).view.emb j)
  have hj0 : (j 0).val < 8192 := (j 0).isLt
  have hq : (j 0).val / 64 < 128 := by omega
  have hp : (j 0).val % 64 < 64 := by omega
  have ej : j = ix2 (brow ⟨(j 0).val / 64, hq⟩ ⟨(j 0).val % 64, hp⟩) (j 1) := by
    funext a; apply Fin.ext
    match a with
    | ⟨0, _⟩ => show (j 0).val = (j 0).val / 64 * 64 + (j 0).val % 64; omega
    | ⟨1, _⟩ => rfl
  have hemb : ((cfg0.win 1).blk t).view.emb j
      = ix2 (tableRow (stepOf t) (brow ⟨(j 0).val / 64, hq⟩ ⟨(j 0).val % 64, hp⟩)) (j 1) := by
    funext a; apply Fin.ext
    match a with
    | ⟨0, _⟩ =>
      show win0_1.index t (0 : Fin 2) * 8192 + 1 * (j 0).val = t.val * 8192 + ((j 0).val / 64 * 64 + (j 0).val % 64)
      omega
    | ⟨1, _⟩ => show win0_1.index t (1 : Fin 2) * 3 + 1 * (j 1).val = (j 1).val; omega
  rw [hemb]
  refine (congrArg (k0_pay3 (F := Ideal) x0) ej).trans ?_
  exact step_centred (stepOf t) x0 Y hx ⟨(j 0).val / 64, hq⟩ ⟨(j 0).val % 64, hp⟩ (j 1)

/-- What step t writes back to the first output is block t of the centred table. -/
theorem flushed1_eq (c : Dev nD) (t : Fin cfg0.N) :
    (dats m 0 c).flushed 1 t = ((cfg0.win 1).blk t).view.read (Elt Ideal) (centred (table m c)) := by
  show (cfg0.win 1).cut (grid0.coords t) ((dats m 0 c).after 1 t) = _
  rw [after0_1]
  unfold out0_1
  rw [View.canon_unit_zero hz]
  simp only [View.ld_unit_zero (S := S8192x3) hz]
  exact write_block1 (xblk m c t) (table m c) t (block_rows m c t)

/-- A row index is in step t's block iff its row lies in [8192 t, 8192 t + 8192) (and its coordinate in [0, 3)). -/
theorem mem_blk1 (t : Fin cfg0.N) (i : S4194304x3.Idx) :
    i ∈ ((cfg0.win 1).blk t).view.set ↔ ∀ a : Fin 2, win0_1.index t a * S8192x3.size a ≤ (i a).val ∧ (i a).val < win0_1.index t a * S8192x3.size a + S8192x3.size a := by
  show i ∈ ((View.whole main_v2_0).slice (win0_1.rect t)).set ↔ _
  rw [View.set_slice_whole, Rect.mem_set_unit]
  exact Iff.rfl

/-- Row i is written by step i / 8192. -/
theorem cover1 (i : S4194304x3.Idx) :
    ∃ t : Fin cfg0.N, (cfg0.win 1).flush t = true ∧ i ∈ ((cfg0.win 1).blk t).view.set := by
  have hi0 : (i 0).val < 4194304 := (i 0).isLt
  have hi1 : (i 1).val < 3 := (i 1).isLt
  have ht : (i 0).val / 8192 < 512 := by omega
  obtain ⟨-, -, e2, e3, -⟩ := idx_facts (Fin.cast N_0.symm ⟨(i 0).val / 8192, ht⟩)
  have et : (Fin.cast N_0.symm (⟨(i 0).val / 8192, ht⟩ : Fin 512)).val = (i 0).val / 8192 := rfl
  refine ⟨Fin.cast N_0.symm ⟨(i 0).val / 8192, ht⟩, flush0_1 _, ?_⟩
  rw [mem_blk1]
  intro a
  match a with
  | ⟨0, _⟩ =>
    show win0_1.index _ (0 : Fin 2) * 8192 ≤ (i 0).val ∧ (i 0).val < win0_1.index _ (0 : Fin 2) * 8192 + 8192
    omega
  | ⟨1, _⟩ =>
    show win0_1.index _ (1 : Fin 2) * 3 ≤ (i 1).val ∧ (i 1).val < win0_1.index _ (1 : Fin 2) * 3 + 3
    omega

/-- After the region the first output holds every row of the table centred. -/
theorem final1 (c : Dev nD) : (dats m 0 c).arrAt 1 cfg0.N = centred (table m c) :=
  (dats m 0 c).arrAt_eq_of_cover 1 (centred (table m c)) (fun t _ => flushed1_eq m c t) cover1

/-! ## The second output: the patch centres -/

/-- Likewise the block it writes to the second output is block t of Y's patch centres. -/
theorem write_block2 (x0 : FVec Ideal S8192x3 .f32) (Y : Rows.Idx → EReal) (t : Fin cfg0.N)
    (hx : ∀ (r : Fin 8192) (cc : Fin 3), x0 (ix2 r cc) = Y (ix2 (tableRow (stepOf t) r) cc)) :
    (cfg0.win 2).cut (grid0.coords t) (k0_pay2 (F := Ideal) x0)
      = ((cfg0.win 2).blk t).view.read (Elt Ideal) (centres Y) := by
  obtain ⟨-, -, -, -, e4, e5⟩ := idx_facts t
  funext j
  rw [View.read_apply]
  show k0_pay2 (F := Ideal) x0 j = centres Y (((cfg0.win 2).blk t).view.emb j)
  have hemb : ((cfg0.win 2).blk t).view.emb j = ix2 (tablePatch (stepOf t) (j 0)) (j 1) := by
    funext a; apply Fin.ext
    match a with
    | ⟨0, _⟩ => show win0_2.index t (0 : Fin 2) * 128 + 1 * (j 0).val = t.val * 128 + (j 0).val; omega
    | ⟨1, _⟩ => show win0_2.index t (1 : Fin 2) * 3 + 1 * (j 1).val = (j 1).val; omega
  rw [hemb]
  refine (congrArg (k0_pay2 (F := Ideal) x0) (eq_ix2 j)).trans ?_
  exact step_centres (stepOf t) x0 Y hx (j 0) (j 1)

/-- What step t writes back to the second output is block t of the table's patch centres. -/
theorem flushed2_eq (c : Dev nD) (t : Fin cfg0.N) :
    (dats m 0 c).flushed 2 t = ((cfg0.win 2).blk t).view.read (Elt Ideal) (centres (table m c)) := by
  show (cfg0.win 2).cut (grid0.coords t) ((dats m 0 c).after 2 t) = _
  rw [after0_2]
  unfold out0_2
  rw [View.canon_unit_zero hz]
  simp only [View.ld_unit_zero (S := S8192x3) hz]
  exact write_block2 (xblk m c t) (table m c) t (block_rows m c t)

theorem mem_blk2 (t : Fin cfg0.N) (i : S65536x3.Idx) :
    i ∈ ((cfg0.win 2).blk t).view.set ↔ ∀ a : Fin 2, win0_2.index t a * S128x3.size a ≤ (i a).val ∧ (i a).val < win0_2.index t a * S128x3.size a + S128x3.size a := by
  show i ∈ ((View.whole main_v2_1).slice (win0_2.rect t)).set ↔ _
  rw [View.set_slice_whole, Rect.mem_set_unit]
  exact Iff.rfl

/-- Patch j is written by step j / 128. -/
theorem cover2 (i : S65536x3.Idx) :
    ∃ t : Fin cfg0.N, (cfg0.win 2).flush t = true ∧ i ∈ ((cfg0.win 2).blk t).view.set := by
  have hi0 : (i 0).val < 65536 := (i 0).isLt
  have hi1 : (i 1).val < 3 := (i 1).isLt
  have ht : (i 0).val / 128 < 512 := by omega
  obtain ⟨-, -, -, -, e4, e5⟩ := idx_facts (Fin.cast N_0.symm ⟨(i 0).val / 128, ht⟩)
  have et : (Fin.cast N_0.symm (⟨(i 0).val / 128, ht⟩ : Fin 512)).val = (i 0).val / 128 := rfl
  refine ⟨Fin.cast N_0.symm ⟨(i 0).val / 128, ht⟩, flush0_2 _, ?_⟩
  rw [mem_blk2]
  intro a
  match a with
  | ⟨0, _⟩ =>
    show win0_2.index _ (0 : Fin 2) * 128 ≤ (i 0).val ∧ (i 0).val < win0_2.index _ (0 : Fin 2) * 128 + 128
    omega
  | ⟨1, _⟩ =>
    show win0_2.index _ (1 : Fin 2) * 3 ≤ (i 1).val ∧ (i 1).val < win0_2.index _ (1 : Fin 2) * 3 + 3
    omega

/-- After the region the second output holds every patch centre of the table. -/
theorem final2 (c : Dev nD) : (dats m 0 c).arrAt 2 cfg0.N = centres (table m c) :=
  (dats m 0 c).arrAt_eq_of_cover 2 (centres (table m c)) (fun t _ => flushed2_eq m c t) cover2

end Cert.KernelIdeal.ArrayValue

end
-- ==== Proof.WordRange.lean ====
/-
  Positions into a table of 4194304 rows, given as signed 32-bit words. A position p with -4194304 ≤ p < 4194304
  is wrapped to a row number: a negative p counts from the table's end (p + 4194304), another stays as it is. The
  wrapped word w then satisfies 0 ≤ w ≤ 4194303, so a test "0 ≤ w and w ≤ 4194303" answers 1. Also here: a fold of
  the one-bit "and" from 1 over a list of ones is 1, so a reduction by "and" of an array of ones is 1 everywhere.
-/
import Idealize.ShloMosaic.Lib.Affine
import Idealize.ShloMosaic.Lib.ReduceAll
import Idealize.ShloMosaic.Lib.ValueIdx
import Idealize.ShloMosaic.PureOps.Reduce

namespace Cert.WordRange

open Idealize.ShloMosaic

theorem toInt_negRows : (4290772992#32 : BitVec 32).toInt = -4194304 := by decide
theorem toInt_rows : (4194304#32 : BitVec 32).toInt = 4194304 := by decide
theorem toInt_lastRow : (4194303#32 : BitVec 32).toInt = 4194303 := by decide
theorem toInt_zero : (0#32 : BitVec 32).toInt = 0 := by decide

/-- A position wrapped to a row number: a negative one counts from the end of the table. -/
def wrap (a : BitVec 32) : BitVec 32 :=
  Scalar.select (IntOp.cmpi .slt a 0#32) (IntOp.addi a 4194304#32) a

/-- A position in [-4194304, 4194304) wraps to a row number in [0, 4194303]. -/
theorem wrap_inRange (a : BitVec 32) (h1 : IntOp.cmpi .sge a 4290772992#32 = 1#1)
    (h2 : IntOp.cmpi .slt a 4194304#32 = 1#1) :
    IntOp.cmpi .sge (wrap a) 0#32 = 1#1 ∧ IntOp.cmpi .sle (wrap a) 4194303#32 = 1#1 := by
  rw [IntOp.cmpi_sge, toInt_negRows] at h1
  rw [IntOp.cmpi_slt, toInt_rows] at h2
  rw [IntOp.cmpi_sge, IntOp.cmpi_sle, toInt_zero, toInt_lastRow]
  unfold wrap
  by_cases hneg : IntOp.cmpi .slt a 0#32 = 1#1
  · rw [hneg, ValueIdx.select_one]
    rw [IntOp.cmpi_slt, toInt_zero] at hneg
    have e : (IntOp.addi a 4194304#32).toInt = a.toInt + 4194304 := by
      rw [IntOp.addi, BitVec.toInt_add, toInt_rows]
      exact Int.bmod_eq_of_le (by omega) (by omega)
    omega
  · rw [ValueIdx.eq_zero_of_ne_one hneg, ValueIdx.select_zero]
    rw [IntOp.cmpi_slt, toInt_zero] at hneg
    omega

/-- A fold of "and" from 1 over ones is 1. -/
theorem foldl_andi_ones {ι : Type} (f : ι → BitVec 1) :
    ∀ l : List ι, (∀ n ∈ l, f n = 1#1) → l.foldl (fun r n => IntOp.andi r (f n)) 1#1 = 1#1
  | [], _ => rfl
  | a :: l, h => by
    have e : IntOp.andi 1#1 (f a) = 1#1 := by rw [h a (List.mem_cons_self ..)]; decide
    rw [List.foldl_cons, e]
    exact foldl_andi_ones f l fun n hn => h n (List.mem_cons_of_mem _ hn)

/-- A reduction by "and", started from 1, of an array of ones is 1 at every result index. -/
theorem reduce_andi_ones {s t u : Shape} {axes : List (Fin s.rank)} (x : s.Idx → BitVec 1) (init : u.Idx → BitVec 1)
    (h : s.ReducesTo axes t) (hu : 0 < u.numel) (j : t.Idx) (hi : init (Shape.Idx.first hu) = 1#1)
    (hx : ∀ i, x i = 1#1) : Host.reduce IntOp.andi x init h hu j = 1#1 := by
  rw [Host.reduce_eq_foldl, hi]
  exact foldl_andi_ones x _ fun n _ => hx n

end Cert.WordRange
-- ==== Proof.EntryTable.lean ====
/-
  The table the kernel region reads. Before the region the program flattens the points to 4194304 rows of 3, wraps
  each position (a negative one counts from the end), gathers the row each wrapped position names, and then keeps
  the gathered row only where the wrapped position w passes the test 0 ≤ w ≤ 4194303, writing a fill value elsewhere.
  When every position lies in [-4194304, 4194304) every wrapped position passes the test, so the table is exactly
  the gathered rows and the fill value is never written.
-/
import proofs.«404306_j57621281243393_3_alg».proof.Proof.Gen.KernelIdeal.Frame
import proofs.«404306_j57621281243393_3_alg».proof.Proof.WordRange
import Idealize.ShloMosaic.Lib.StableHlo.Run
import Idealize.ShloMosaic.Lib.ValueIdx
import Idealize.ShloMosaic.PureOps.Ideal

noncomputable section

namespace Cert.KernelIdeal.EntryTable

open Cert.KernelIdeal Cert.KernelIdeal.Gen Idealize.ShloMosaic Idealize.ShloMosaic.TcCoe Idealize.SL.Sem
open Idealize.ShloMosaic.StableHlo Idealize.ShloMosaic.ValueIdx

/-- The positions wrapped to row numbers, as the column of start indices the gather takes. -/
def starts (a : IVec S4194304 32) : IVec S4194304x1 32 :=
  broadcastInDim S4194304x1 ![0] bcast_S4194304_S4194304x1_0
    (select (cmpi .slt a (broadcastInDim S4194304 ![] bcast_S_S4194304 (constantI S_ 32 0#32)))
      (addi a (broadcastInDim S4194304 ![] bcast_S_S4194304 (constantI S_ 32 4194304#32))) a)

/-- The rows the wrapped positions name, gathered from the flattened points. -/
def gathered (x : FVec Ideal S32x131072x3 .f32) (a : IVec S4194304 32) : FVec Ideal S4194304x3 .f32 :=
  Host.gather gather_S4194304x3_S4194304x1_S4194304x3_1_0_n_n_0_1_13
    (shapeCast S4194304x3 x shapeCasts_S32x131072x3_S4194304x3) (starts a)

/-- The test "0 ≤ w ≤ 4194303" of every wrapped position, one bit per row of the table. -/
def keep (a : IVec S4194304 32) : IVec S4194304x3 1 :=
  broadcastInDim S4194304x3 ![0] bcast_S4194304_S4194304x3_0
    (Host.reduce IntOp.andi
      (andi (cmpi .sge (starts a) (broadcastInDim S4194304x1 ![] bcast_S_S4194304x1 (constantI S_ 32 0#32)))
        (cmpi .sle (starts a) (broadcastInDim S4194304x1 ![0, 1] bcast_S1x1_S4194304x1_0_1
          (broadcastInDim S1x1 ![1] bcast_S1_S1x1_1 (constantI S1 32 4194303#32)))))
      (constantI S_ 1 1#1) reducesTo_S4194304x1_S4194304_d1 h_S_)

variable (m : (ℓ : Loc nD τ sig) → Buf (Elt Ideal) ℓ)

/-- A value written to a buffer and read back at the value's own type is the value. -/
theorem ofBuf_toBuf {T : BufTy} {Val : EltTy → Type} (x : StableHlo.TRef sig T) (v : T.Contents Val) :
    x.ofBuf (x.toBuf v) = v := by
  obtain ⟨r, rfl, _, _⟩ := x
  rfl

set_option maxHeartbeats 8000000 in
/-- The table as the region finds it: the gathered rows where the test passes, the fill value elsewhere. Each host
    line's value is read back where the next lines use it; with those write-and-read-back pairs removed, what is left is
    the lines' functions composed. -/
theorem entry_term (c : Dev nD) :
    (V m c main_v1 : S4194304x3.Idx → EReal)
      = select (keep (m ((c : Thread nD τ).loc main_arg1)))
          (gathered (m ((c : Thread nD τ).loc main_arg0)) (m ((c : Thread nD τ).loc main_arg1)))
          (broadcastInDim S4194304x3 ![] bcast_S_S4194304x3 (constant (F := Ideal) S_ .f32 0x7FC00000#32)) := by
  have key : ∀ X : Buf (Elt Ideal) ((c : Thread nD τ).loc main_v1),
      (TRef.of main_v1 : StableHlo.TRef sig ⟨S4194304x3, .f32⟩).ofBuf X = X := fun _ => rfl
  refine (key (V m c main_v1)).symm.trans ?_
  dsimp only [Gen.V, Gen.V0]
  simp only [hostOps0, hostOps0_1, List.flatten_cons, List.flatten_nil, List.append_nil, List.cons_append, List.nil_append]
  after_results
  simp only [ofBuf_toBuf]
  rfl

/-- With every position in [-4194304, 4194304) the test passes on every row. -/
theorem keep_ones (a : IVec S4194304 32)
    (hpos : ∀ i : S4194304.Idx, IntOp.cmpi .sge (a i) 4290772992#32 = 1#1 ∧ IntOp.cmpi .slt (a i) 4194304#32 = 1#1)
    (i : S4194304x3.Idx) : keep a i = 1#1 := by
  unfold keep
  refine Cert.WordRange.reduce_andi_ones _ _ reducesTo_S4194304x1_S4194304_d1 h_S_ _ rfl fun k => ?_
  exact IntOp.andi_eq_one.2 (Cert.WordRange.wrap_inRange _ (hpos _).1 (hpos _).2)

/-- So the table is the gathered rows. -/
theorem entry_table (c : Dev nD)
    (hpos : ∀ i : S4194304.Idx, IntOp.cmpi .sge (m ((c : Thread nD τ).loc main_arg1) i) 4290772992#32 = 1#1
      ∧ IntOp.cmpi .slt (m ((c : Thread nD τ).loc main_arg1) i) 4194304#32 = 1#1) :
    (V m c main_v1 : S4194304x3.Idx → EReal)
      = gathered (m ((c : Thread nD τ).loc main_arg0)) (m ((c : Thread nD τ).loc main_arg1)) := by
  rw [entry_term]
  funext i
  rw [select_apply, keep_ones _ hpos i, select_one]

end Cert.KernelIdeal.EntryTable

end
-- ==== Proof.PreRange.lean ====
/-
  What the precondition says of the positions. Its second half is "every position p satisfies -4194304 ≤ p and
  p < 4194304", printed as an "and"-reduction of the two comparisons over all 4194304 positions; when the whole
  precondition answers 1, each position passes both comparisons.
-/
import proofs.«404306_j57621281243393_3_alg».proof.Pre_finite_inputs
import Idealize.ShloMosaic.Lib.Affine
import Idealize.ShloMosaic.Lib.ReduceAll
import Idealize.ShloMosaic.Lib.ValueIdx

namespace Cert.Pre_finite_inputs.Range

open Idealize.ShloMosaic Idealize.ShloMosaic.ValueIdx Cert.Pre_finite_inputs

instance : Subsingleton S_.Idx := ⟨fun _ _ => funext fun d => d.elim0⟩

/-- Under the precondition every position lies in [-4194304, 4194304). -/
theorem positions_inRange {F : FTy → Type} [FloatOps F] [Facts] (x : FVec F S32x131072x3 .f32) (a : IVec S4194304 32)
    (h : fn (F := F) x a = fun _ => 1#1) (i : S4194304.Idx) :
    IntOp.cmpi .sge (a i) 4290772992#32 = 1#1 ∧ IntOp.cmpi .slt (a i) 4194304#32 = 1#1 := by
  have h0 := congrFun h ix0
  dsimp only [fn] at h0
  obtain ⟨-, h9⟩ := IntOp.andi_eq_one.1 h0
  have h8 := Host.reduce_andi_all _ _ _ _ ix0 h9 i
  exact IntOp.andi_eq_one.1 h8

end Cert.Pre_finite_inputs.Range
-- ==== Proof.KernelResult.lean ====
/-
  The kernel's program, end to end. After the region the program only re-lays its two arrays out: the centred rows as
  32 × 2048 patches of 64 rows, the patch centres as 32 × 2048 rows of 3. Under the precondition the table the region
  read was the gathered rows, so the program's two results are the gathered table's centred rows and patch centres in
  the results' layouts, and its two arguments end as they were.
-/
import proofs.«404306_j57621281243393_3_alg».proof.Proof.Gen.KernelIdeal.Frame
import proofs.«404306_j57621281243393_3_alg».proof.Proof.ArrayValue
import proofs.«404306_j57621281243393_3_alg».proof.Proof.EntryTable
import proofs.«404306_j57621281243393_3_alg».proof.Proof.PreRange
import proofs.«404306_j57621281243393_3_alg».proof.Proof.Gen.Pre_finite_inputs
import Idealize.ShloMosaic.Lib.StableHlo.Run

noncomputable section

namespace Cert.KernelIdeal.Result

open Cert.KernelIdeal Cert.KernelIdeal.Gen Cert.PatchMean
open Idealize.ShloMosaic Idealize.ShloMosaic.TcCoe Idealize.SL.Sem Idealize.ShloMosaic.StableHlo
open Idealize.ShloMosaic.Pipeline (Dat)

variable (m : (ℓ : Loc nD τ sig) → Buf (Elt Ideal) ℓ) (ρ : Dev nD → PrngReg)

/-- The first result: the first array, re-laid. -/
theorem tail_patches (c : Dev nD) :
    Pipeline.afterTail₀ cfgs (dats m) 0 (V0 m) [hostOps1] c main_v3 = patchesOut (ArrayValue.table m c) := by
  unfold Pipeline.afterTail₀
  show StableHlo.after hostOps1 _ (Proc.devRef .tc main_v3) = _
  after_results
  rw [Pipeline.withArrays_arr spec0 launch0.win.arr_inj c _ _ 1, ArrayValue.final1]
  rfl

/-- The second result: the second array, re-laid. -/
theorem tail_centres (c : Dev nD) :
    Pipeline.afterTail₀ cfgs (dats m) 0 (V0 m) [hostOps1] c main_v4 = centresOut (ArrayValue.table m c) := by
  unfold Pipeline.afterTail₀
  show StableHlo.after hostOps1 _ (Proc.devRef .tc main_v4) = _
  after_results
  rw [Pipeline.withArrays_arr spec0 launch0.win.arr_inj c _ _ 2, ArrayValue.final2]
  rfl

/-- Every weakly fair run of the kernel's program from a memory satisfying the precondition ends with the two results
    at the gathered table's centred rows and patch centres, and the arguments unchanged. -/
theorem run
    (hpre : ∀ c : Dev nD, Cert.Pre_finite_inputs.fn (F := Ideal) (m ((c.tc : Thread nD τ).loc main_arg0))
      (m ((c.tc : Thread nD τ).loc main_arg1)) = fun _ => 1#1) :
    θ_run defs (onTc (τ := τ) (main (F := Ideal))) ⟨m, fun _ => 0, ρ⟩ fun r => ∀ c : Dev nD,
      r.2.mem ((c.tc : Thread nD τ).loc main_v3)
          = patchesOut (EntryTable.gathered (m ((c.tc : Thread nD τ).loc main_arg0)) (m ((c.tc : Thread nD τ).loc main_arg1)))
      ∧ r.2.mem ((c.tc : Thread nD τ).loc main_v4)
          = centresOut (EntryTable.gathered (m ((c.tc : Thread nD τ).loc main_arg0)) (m ((c.tc : Thread nD τ).loc main_arg1)))
      ∧ r.2.mem ((c.tc : Thread nD τ).loc main_arg0) = m ((c.tc : Thread nD τ).loc main_arg0)
      ∧ r.2.mem ((c.tc : Thread nD τ).loc main_arg1) = m ((c.tc : Thread nD τ).loc main_arg1) :=
  (θ_run defs _ _).mono (fun r h c =>
    have htab := EntryTable.entry_table m c (Cert.Pre_finite_inputs.Range.positions_inRange _ _ (hpre c))
    ⟨((h c).2 main_v3 (Pipeline.mem_restRefs_of main_v3 (by decide) (by decide))).trans
        ((tail_patches m c).trans (congrArg patchesOut htab)),
      ((h c).2 main_v4 (Pipeline.mem_restRefs_of main_v4 (by decide) (by decide))).trans
        ((tail_centres m c).trans (congrArg centresOut htab)),
      ((h c).2 main_arg0 (Pipeline.mem_restRefs_of main_arg0 (by decide) (by decide))).trans (W_main_arg0 m (dats m) c),
      ((h c).2 main_arg1 (Pipeline.mem_restRefs_of main_arg1 (by decide) (by decide))).trans (W_main_arg1 m (dats m) c)⟩)
    (run_main m ρ)

end Cert.KernelIdeal.Result

end
-- ==== Proof.ReferenceValue.lean ====
/-
  The reference, one index at a time. It gathers the rows the wrapped positions name (the same gather the kernel's
  program makes), lays the gathered table out as 32 × 2048 patches of 64 rows, sums each patch's rows coordinate by
  coordinate from 0, divides by 64 and subtracts the quotient from every row of the patch. Entry (b, l, p, c) of the
  laid-out table is row 64 (2048 b + l) + p, coordinate c, of the gathered table; so the reference's two results are
  the gathered table's centred rows and patch centres in the results' layouts.
-/
import proofs.«404306_j57621281243393_3_alg».proof.Proof.Gen.ReferenceIdeal.Read
import proofs.«404306_j57621281243393_3_alg».proof.Proof.PatchMean
import Idealize.ShloMosaic.Lib.ValueIdx
import Idealize.ShloMosaic.PureOps.Ideal.Laws

noncomputable section

namespace Cert.ReferenceIdeal.RefValue

open Cert.ReferenceIdeal Cert.ReferenceIdeal.Read Cert.PatchMean
open Idealize.ShloMosaic Idealize.ShloMosaic.ValueIdx

variable (x0 : (⟨S32x131072x3, .f32⟩ : BufTy).Contents (Elt Ideal)) (x1 : (⟨S4194304, .i32⟩ : BufTy).Contents (Elt Ideal))

/-- The gathered table. -/
abbrev gath : Rows.Idx → EReal := val_main_v7 (F := Ideal) x0 x1

/-- Entry (b, l, p, c) of the laid-out table is row 64 (2048 b + l) + p, coordinate c, of the gathered table. -/
theorem laid_at (b : Fin 32) (l : Fin 2048) (p : Fin 64) (c : Fin 3) :
    val_main_v9 (F := Ideal) x0 x1 (ix4 b l p c) = gath x0 x1 (ix2 (rowOf (patchAt b l) p) c) := by
  rw [val_main_v9_apply, val_main_v8_apply]
  refine congrArg (val_main_v7 (F := Ideal) x0 x1) (funext fun a => Fin.ext ?_)
  have hb := b.isLt; have hl := l.isLt; have hp := p.isLt; have hc := c.isLt
  match a with
  | ⟨0, _⟩ =>
    show ((((((b.val * 2048 + l.val) * 64 + p.val) * 3 + c.val) / 393216) * 131072
        + (((b.val * 2048 + l.val) * 64 + p.val) * 3 + c.val) / 3 % 131072) * 3
        + (((b.val * 2048 + l.val) * 64 + p.val) * 3 + c.val) % 3) / 3 = (b.val * 2048 + l.val) * 64 + p.val
    omega
  | ⟨1, _⟩ =>
    show ((((((b.val * 2048 + l.val) * 64 + p.val) * 3 + c.val) / 393216) * 131072
        + (((b.val * 2048 + l.val) * 64 + p.val) * 3 + c.val) / 3 % 131072) * 3
        + (((b.val * 2048 + l.val) * 64 + p.val) * 3 + c.val) % 3) % 3 = c.val
    omega

/-- The reference's centre of patch (b, l). -/
theorem centre_at (b : Fin 32) (l : Fin 2048) (c : Fin 3) :
    val_main_v12 (F := Ideal) x0 x1 (ix3 b l c) = centres (gath x0 x1) (ix2 (patchAt b l) c) := by
  rw [val_main_v12_apply, val_main_v10_apply, val_main_v11_apply, centres_apply]
  show Ideal.div (Ideal.ofBits .f32 0x00000000#32 + ∑ k : Fin 64, val_main_v9 (F := Ideal) x0 x1 (idx_main_v10 (ix3 b l c) k))
      sixtyFour = _
  rw [Ideal.ofBits_zero_f32, zero_add]
  refine congrArg (fun s => Ideal.div s sixtyFour) (Finset.sum_congr rfl fun k _ => ?_)
  refine (congrArg (val_main_v9 (F := Ideal) x0 x1) (?_ : idx_main_v10 (ix3 b l c) k = ix4 b l k c)).trans (laid_at x0 x1 b l k c)
  funext a
  exact Fin.ext (by match a with | ⟨0, _⟩ => rfl | ⟨1, _⟩ => rfl | ⟨2, _⟩ => rfl | ⟨3, _⟩ => rfl)

/-- The reference's second result is the gathered table's patch centres. -/
theorem centres_eq : val_main_v12 (F := Ideal) x0 x1 = centresOut (gath x0 x1) := by
  funext i
  obtain ⟨b, l, c, rfl⟩ : ∃ (b : Fin 32) (l : Fin 2048) (c : Fin 3), i = ix3 b l c := ⟨i 0, i 1, i 2, eq_ix3 i⟩
  rw [centresOut_apply]
  exact centre_at x0 x1 b l c

/-- The reference's first result is the gathered table's rows, centred. -/
theorem patches_eq : val_main_v15 (F := Ideal) x0 x1 = patchesOut (gath x0 x1) := by
  funext i
  obtain ⟨b, l, p, c, rfl⟩ : ∃ (b : Fin 32) (l : Fin 2048) (p : Fin 64) (c : Fin 3), i = ix4 b l p c :=
    ⟨i 0, i 1, i 2, i 3, eq_ix4 i⟩
  rw [patchesOut_apply, centred_apply, patchOf_rowOf, val_main_v15_apply, val_main_v14_apply, val_main_v13_apply]
  show val_main_v9 (F := Ideal) x0 x1 (ix4 b l p c) - val_main_v12 (F := Ideal) x0 x1 _ = _
  refine congrArg₂ (· - ·) (laid_at x0 x1 b l p c) ?_
  refine (congrArg (val_main_v12 (F := Ideal) x0 x1) (?_ : _ = ix3 b l c)).trans (centre_at x0 x1 b l c)
  funext a
  exact Fin.ext (by match a with | ⟨0, _⟩ => rfl | ⟨1, _⟩ => rfl | ⟨2, _⟩ => rfl)

end Cert.ReferenceIdeal.RefValue

end
-- ==== Proof.lean ====
/-
  The kernel re-orders 4194304 three-dimensional points by a table of positions, cuts the re-ordered list into
  patches of 64 consecutive points, and returns each patch's points relative to the patch's centre (the mean of its
  64 points) together with the centres. The reference does the same with plain array operations.

  Both programs wrap a position p to a row number the same way (a negative p counts from the end) and gather the rows
  the wrapped positions name. The kernel's program then keeps a gathered row only where the wrapped position lies in
  [0, 4194303] and writes a fill value elsewhere, while the reference's gather clamps; the two agree exactly when every
  position lies in [-4194304, 4194304), which is the precondition's second half. Under it both programs work on ONE
  gathered table, and what is left is arithmetic over the extended reals with no appeal to finiteness: the kernel sums
  the 64 rows of a patch as a lane sum inside a block of 128 patches, the reference as a sum from 0 over the patch axis
  of the re-laid table; both divide by the same word for 64 and subtract the quotient from every row of the patch.
  The kernel's grid of 512 steps tiles both of its outputs, so its arrays hold the centred rows and the centres of the
  whole table, and the program's last lines re-lay them exactly as the reference lays its own results out.
-/
import proofs.«404306_j57621281243393_3_alg».proof.Defs
import proofs.«404306_j57621281243393_3_alg».proof.Proof.Gen.Kernel
import proofs.«404306_j57621281243393_3_alg».proof.Proof.Gen.Kernel.Skeleton
import proofs.«404306_j57621281243393_3_alg».proof.Proof.Gen.Kernel.Launch
import proofs.«404306_j57621281243393_3_alg».proof.Proof.Gen.Kernel.Points
import proofs.«404306_j57621281243393_3_alg».proof.Proof.Gen.Kernel.Frame
import proofs.«404306_j57621281243393_3_alg».proof.Proof.Gen.KernelIdeal
import proofs.«404306_j57621281243393_3_alg».proof.Proof.Gen.KernelIdeal.Skeleton
import proofs.«404306_j57621281243393_3_alg».proof.Proof.Gen.KernelIdeal.Launch
import proofs.«404306_j57621281243393_3_alg».proof.Proof.Gen.KernelIdeal.Points
import proofs.«404306_j57621281243393_3_alg».proof.Proof.Gen.KernelIdeal.Frame
import proofs.«404306_j57621281243393_3_alg».proof.Proof.Gen.ReferenceIdeal
import proofs.«404306_j57621281243393_3_alg».proof.Proof.Gen.Pre_finite_inputs
import proofs.«404306_j57621281243393_3_alg».proof.Proof.Gen.ReferenceIdeal.Run
import proofs.«404306_j57621281243393_3_alg».proof.Proof.Gen.ReferenceIdeal.Read
import proofs.«404306_j57621281243393_3_alg».proof.Proof.KernelResult
import proofs.«404306_j57621281243393_3_alg».proof.Proof.ReferenceValue
import Idealize.ShloMosaic.Adequacy
import Idealize.ShloMosaic.Init

noncomputable section

namespace Cert.Proof

open Idealize.ShloMosaic Idealize.SL.Sem Cert.PatchMean

/-- The two programs gather the same rows: the reference's gathered table is the kernel program's. -/
theorem gathered_eq (x : FVec Ideal Cert.KernelIdeal.S32x131072x3 .f32) (a : IVec Cert.KernelIdeal.S4194304 32) :
    Cert.ReferenceIdeal.RefValue.gath x a = Cert.KernelIdeal.EntryTable.gathered x a := rfl

theorem frame_k : Cert.frame_Kernel := fun m ρ _ => Cert.Kernel.Gen.frame m ρ

theorem frame_ki : Cert.frame_KernelIdeal := fun m ρ _ => Cert.KernelIdeal.Gen.frame m ρ

/-- The reference's frame is its run with the results dropped. -/
theorem frame_ri : Cert.frame_ReferenceIdeal := fun m ρ _ =>
  (θ_run Cert.ReferenceIdeal.defs _ _).mono (fun _ h c => (h c).2.2) (Cert.ReferenceIdeal.Value.run (F := Ideal) m ρ)

/-- Both programs end at the gathered table's centred rows and patch centres, in the results' layouts. -/
theorem algebraic : Cert.algebraic_KernelIdeal_ReferenceIdeal := by
  intro m ρ m' ρ' hpre hagree
  refine ⟨_, _, Cert.KernelIdeal.Result.run m ρ hpre, ?_⟩
  refine (θ_run Cert.ReferenceIdeal.defs _ _).mono (fun _ h c => ⟨?_, ?_, (h c).2.2.1, (h c).2.2.2⟩)
    (Cert.ReferenceIdeal.Value.run (F := Ideal) m' ρ')
  · rw [(h c).1, Cert.ReferenceIdeal.Read.val_main_v15_eq, Cert.ReferenceIdeal.RefValue.patches_eq, (hagree c).1,
      (hagree c).2, gathered_eq]
  · rw [(h c).2.1, Cert.ReferenceIdeal.Read.val_main_v12_eq, Cert.ReferenceIdeal.RefValue.centres_eq, (hagree c).1,
      (hagree c).2, gathered_eq]

theorem claim : Cert.Claim := ⟨Cert.Kernel.Gen.facts, Cert.KernelIdeal.Gen.facts, Cert.ReferenceIdeal.Gen.facts, Cert.Pre_finite_inputs.Gen.facts,
  frame_k, frame_ki, frame_ri, trivial, algebraic⟩

end Cert.Proof

end
